-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x3 : Shape := ⟨3, ![16, 4096, 3]⟩
abbrev S_ : Shape := ⟨0, ![]⟩

class Facts : Prop where
  bcast_S_S16x4096x3 : S_.BroadcastsInDim S16x4096x3 (![] : Fin 0 → Fin S16x4096x3.rank)
  reducesTo_S16x4096x3_S_d0_1_2 : S16x4096x3.ReducesTo [0, 1, 2] S_
  h_S_ : 0 < S_.numel

variable [Facts]

def fn {F : FTy → Type} [FloatOps F] (main_arg0 : FVec F S16x4096x3 .f32) (main_arg1 : FVec F S16x4096x3 .f32) : IVec S_ 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_c : IVec S_ 1 := constantI S_ 1 1#1
  let main_v3 : IVec S_ 1 := (fun x v => Host.reduce IntOp.andi x v reducesTo_S16x4096x3_S_d0_1_2 h_S_) main_v2 main_c
  let main_v4 : FVec F S16x4096x3 .f32 := Host.absf main_arg1
  let main_cst_0 : FVec F S_ .f32 := constant S_ .f32 0x7F800000#32
  let main_v5 : FVec F S16x4096x3 .f32 := broadcastInDim S16x4096x3 ![] bcast_S_S16x4096x3 main_cst_0
  let main_v6 : IVec S16x4096x3 1 := cmpf .olt main_v4 main_v5
  let main_c_1 : IVec S_ 1 := constantI S_ 1 1#1
  let main_v7 : IVec S_ 1 := (fun x v => Host.reduce IntOp.andi x v reducesTo_S16x4096x3_S_d0_1_2 h_S_) main_v6 main_c_1
  let main_v8 : IVec S_ 1 := andi main_v3 main_v7
  main_v8
-- ==== Kernel.lean ====
abbrev S16x4096x3 : Shape := ⟨3, ![16, 4096, 3]⟩
abbrev S_ : Shape := ⟨0, ![]⟩
abbrev S16x4096 : Shape := ⟨2, ![16, 4096]⟩
abbrev S16x4096x1 : Shape := ⟨3, ![16, 4096, 1]⟩
abbrev S16x1x4096 : Shape := ⟨3, ![16, 1, 4096]⟩
abbrev S1x512x3 : Shape := ⟨3, ![1, 512, 3]⟩
abbrev S1x4096x3 : Shape := ⟨3, ![1, 4096, 3]⟩
abbrev S1x512x1 : Shape := ⟨3, ![1, 512, 1]⟩
abbrev S1x1x4096 : Shape := ⟨3, ![1, 1, 4096]⟩
abbrev S1x4096 : Shape := ⟨2, ![1, 4096]⟩
abbrev S512x3 : Shape := ⟨2, ![512, 3]⟩
abbrev S4096x3 : Shape := ⟨2, ![4096, 3]⟩
abbrev S512x4096 : Shape := ⟨2, ![512, 4096]⟩
abbrev S512x1 : Shape := ⟨2, ![512, 1]⟩
abbrev S512 : Shape := ⟨1, ![512]⟩
abbrev S4096 : Shape := ⟨1, ![4096]⟩
abbrev S16 : Shape := ⟨1, ![16]⟩

abbrev nBuf : Space → Nat
  | .hbm => 31
  | .vmem => 12
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x3, .f32⟩
  | .hbm, ⟨3, _⟩ => ⟨S_, .f32⟩
  | .hbm, ⟨4, _⟩ => ⟨S16x4096, .f32⟩
  | .hbm, ⟨5, _⟩ => ⟨S16x4096x1, .f32⟩
  | .hbm, ⟨6, _⟩ => ⟨S16x4096x3, .f32⟩
  | .hbm, ⟨7, _⟩ => ⟨S_, .f32⟩
  | .hbm, ⟨8, _⟩ => ⟨S16x4096, .f32⟩
  | .hbm, ⟨9, _⟩ => ⟨S16x4096x1, .f32⟩
  | .hbm, ⟨10, _⟩ => ⟨S16x1x4096, .f32⟩
  | .hbm, ⟨11, _⟩ => ⟨S16x4096x1, .f32⟩
  | .hbm, ⟨12, _⟩ => ⟨S16x1x4096, .f32⟩
  | .hbm, ⟨13, _⟩ => ⟨S16x4096, .f32⟩
  | .hbm, ⟨14, _⟩ => ⟨S16x4096, .f32⟩
  | .hbm, ⟨15, _⟩ => ⟨S_, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S_, .f32⟩
  | .hbm, ⟨30, _⟩ => ⟨S_, .f32⟩
  | .local _ .vmem, ⟨0, _⟩ => ⟨S1x512x3, .f32⟩
  | .local _ .vmem, ⟨1, _⟩ => ⟨S1x512x3, .f32⟩
  | .local _ .vmem, ⟨2, _⟩ => ⟨S1x4096x3, .f32⟩
  | .local _ .vmem, ⟨3, _⟩ => ⟨S1x4096x3, .f32⟩
  | .local _ .vmem, ⟨4, _⟩ => ⟨S1x512x1, .f32⟩
  | .local _ .vmem, ⟨5, _⟩ => ⟨S1x512x1, .f32⟩
  | .local _ .vmem, ⟨6, _⟩ => ⟨S1x1x4096, .f32⟩
  | .local _ .vmem, ⟨7, _⟩ => ⟨S1x1x4096, .f32⟩
  | .local _ .vmem, ⟨8, _⟩ => ⟨S1x512x1, .f32⟩
  | .local _ .vmem, ⟨9, _⟩ => ⟨S1x512x1, .f32⟩
  | .local _ .vmem, ⟨10, _⟩ => ⟨S1x1x4096, .f32⟩
  | .local _ .vmem, ⟨11, _⟩ => ⟨S1x1x4096, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  transposes_S16x4096x1_S16x1x4096_0_2_1 : S16x4096x1.Transposes [0, 2, 1] S16x1x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  bitsLt_bf16_f32 : FTy.bits .bf16 < FTy.bits .f32
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  broadcasts_S512x1_S512x4096 : S512x1.Broadcasts S512x4096
  broadcasts_S1x4096_S512x4096 : S1x4096.Broadcasts S512x4096
  reduces_S512x4096_S512 : S512x4096.Reduces [1] S512
  shapeCasts_S512_S512x1 : S512.ShapeCasts S512x1
  shapeCasts_S512x1_S1x512x1 : S512x1.ShapeCasts S1x512x1
  reduces_S512x4096_S4096 : S512x4096.Reduces [0] S4096
  shapeCasts_S4096_S1x4096 : S4096.ShapeCasts S1x4096
  shapeCasts_S16x4096x1_S16x4096 : S16x4096x1.ShapeCasts S16x4096
  shapeCasts_S16x1x4096_S16x4096 : S16x1x4096.ShapeCasts S16x4096
  reducesTo_S16x4096_S16_d1 : S16x4096.ReducesTo [1] S16
  bcast_S_S16 : S_.BroadcastsInDim S16 (![] : Fin 0 → Fin S16.rank)
  reducesTo_S16_S_d0 : S16.ReducesTo [0] S_
  dot_S512x3_S4096x3_S512x4096_1_1_0_0_n_n_wf : DotDims.WF S512x3 S4096x3 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S16x4096x3.size a
  hwx0_0 : ∀ i : grid0.Coords, EltTy.bits .f32 = 32 ∨ (Rect.block (s := S16x4096x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x3.size a ≤ S16x4096x3.size a
  hwx0_1 : ∀ i : grid0.Coords, EltTy.bits .f32 = 32 ∨ (Rect.block (s := S16x4096x3) S1x4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S16x4096x1.size a
  hwx0_2 : ∀ i : grid0.Coords, EltTy.bits .f32 = 32 ∨ (Rect.block (s := S16x4096x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S16x1x4096.size a
  hwx0_3 : ∀ i : grid0.Coords, EltTy.bits .f32 = 32 ∨ (Rect.block (s := S16x1x4096) S1x1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1.size a ≤ S16x4096x1.size a
  hwx0_4 : ∀ i : grid0.Coords, EltTy.bits .f32 = 32 ∨ (Rect.block (s := S16x4096x1) S1x512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x4096.size a ≤ S16x1x4096.size a
  hwx0_5 : ∀ i : grid0.Coords, EltTy.bits .f32 = 32 ∨ (Rect.block (s := S16x1x4096) S1x1x4096.size (cc0_transform_5 i) (hinb0_5 i)).WholeWords (EltTy.packing .f32)

variable [Facts₀]

def dot_S512x3_S4096x3_S512x4096_1_1_0_0_n_n : DotDims S512x3 S4096x3 S512x4096 where
  lhsContracting := [1]
  rhsContracting := [1]
  lhsNonContracting := [0]
  rhsNonContracting := [0]
  lhsBatch := []
  rhsBatch := []
  wf := dot_S512x3_S4096x3_S512x4096_1_1_0_0_n_n_wf

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S1x512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S1x1x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x4096x3 : Shape := ⟨3, ![16, 4096, 3]⟩
abbrev S_ : Shape := ⟨0, ![]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩
abbrev S16 : Shape := ⟨1, ![16]⟩

abbrev nBuf : Space → Nat
  | .hbm => 38
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x3, .f32⟩
  | .hbm, ⟨3, _⟩ => ⟨S_, .f32⟩
  | .hbm, ⟨4, _⟩ => ⟨S16x4096, .f32⟩
  | .hbm, ⟨5, _⟩ => ⟨S16x4096x3, .f32⟩
  | .hbm, ⟨6, _⟩ => ⟨S_, .f32⟩
  | .hbm, ⟨7, _⟩ => ⟨S16x4096, .f32⟩
  | .hbm, ⟨8, _⟩ => ⟨S16x4096x4096, .f32⟩
  | .hbm, ⟨9, _⟩ => ⟨S16x4096x1, .f32⟩
  | .hbm, ⟨10, _⟩ => ⟨S16x1x4096, .f32⟩
  | .hbm, ⟨11, _⟩ => ⟨S16x4096x4096, .f32⟩
  | .hbm, ⟨12, _⟩ => ⟨S16x4096x4096, .f32⟩
  | .hbm, ⟨13, _⟩ => ⟨S16x4096x4096, .f32⟩
  | .hbm, ⟨14, _⟩ => ⟨S_, .f32⟩
  | .hbm, ⟨15, _⟩ => ⟨S16x4096x4096, .f32⟩
  | .hbm, ⟨16, _⟩ => ⟨S16x4096x4096, .f32⟩
  | .hbm, ⟨17, _⟩ => ⟨S16x4096x4096, .f32⟩
  | .hbm, ⟨18, _⟩ => ⟨S_, .f32⟩
  | .hbm, ⟨19, _⟩ => ⟨S16x4096, .f32⟩
  | .hbm, ⟨20, _⟩ => ⟨S_, .f32⟩
  | .hbm, ⟨21, _⟩ => ⟨S16x4096, .f32⟩
  | .hbm, ⟨22, _⟩ => ⟨S_, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S_, .f32⟩
  | .hbm, ⟨37, _⟩ => ⟨S_, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d2 : S16x4096x4096.ReducesTo [2] S16x4096
  reducesTo_S16x4096x4096_S16x4096_d1 : S16x4096x4096.ReducesTo [1] S16x4096
  reducesTo_S16x4096_S16_d1 : S16x4096.ReducesTo [1] S16
  bcast_S_S16 : S_.BroadcastsInDim S16 (![] : Fin 0 → Fin S16.rank)
  reducesTo_S16_S_d0 : S16.ReducesTo [0] S_
  dot_S16x4096x3_S16x4096x3_S16x4096x4096_2_2_1_1_0_0_wf : DotDims.WF S16x4096x3 S16x4096x3 S16x4096x4096 [2] [2] [1] [1] [0] [0]

variable [Facts₀]

def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.Body.lean ====
/-
  What one run of the kernel body leaves in its two output blocks, as functions of the blocks it was given.

  The body forms the 512 × 4096 table of squared distances between the 512 points of its tile of the first cloud and all
  4096 points of the second, writes each row's minimum into the first output block, and folds each column's minimum
  into the second output block: at the first tile of a cloud the block is first reset to +∞, at the later tiles it is
  read as the tile before left it.
-/
import proofs.«119557_j61194694033711_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]

theorem hz3 : (![0, 0, 0] : Fin 3 → Nat) = fun _ => 0 := funext fun a => by fin_cases a <;> rfl

/-- At a first tile the row minima are the one store's payload of the four input blocks. -/
theorem rowMin_first (c : Dev nD) (i : grid0.Coords) (a2 : Memref sig .tc .vmem S1x512x3 .f32) (h2 : a2.IsWhole) (a3 : Memref sig .tc .vmem S1x4096x3 .f32) (h3 : a3.IsWhole) (a4 : Memref sig .tc .vmem S1x512x1 .f32) (h4 : a4.IsWhole) (a5 : Memref sig .tc .vmem S1x1x4096 .f32) (h5 : a5.IsWhole) (a6 : Memref sig .tc .vmem S1x512x1 .f32) (h6 : a6.IsWhole) (a7 : Memref sig .tc .vmem S1x1x4096 .f32) (h7 : a7.IsWhole) (hc : cond0_0 i) (x0 : Vec F S1x512x3 .f32) (x1 : Vec F S1x4096x3 .f32) (x2 : Vec F S1x512x1 .f32) (x3 : Vec F S1x1x4096 .f32) :
    out0_A_4 c i a2 h2 a3 h3 a4 h4 a5 h5 a6 h6 a7 h7 hc x0 x1 x2 x3 = k0_pay4 x0 x1 x2 x3 := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_unit_zero hz3]
  simp only [View.readAt_eq_ld, h2.read_unread, h3.read_unread, h4.read_unread, h5.read_unread, h7.read_unread, View.ld_unit_zero (S := S1x512x3) hz3, View.ld_unit_zero (S := S1x4096x3) hz3, View.ld_unit_zero (S := S1x512x1) hz3, View.ld_unit_zero (S := S1x1x4096) hz3]

/-- At a later tile the same: the row minima do not depend on what the column block held. -/
theorem rowMin_later (c : Dev nD) (i : grid0.Coords) (a2 : Memref sig .tc .vmem S1x512x3 .f32) (h2 : a2.IsWhole) (a3 : Memref sig .tc .vmem S1x4096x3 .f32) (h3 : a3.IsWhole) (a4 : Memref sig .tc .vmem S1x512x1 .f32) (h4 : a4.IsWhole) (a5 : Memref sig .tc .vmem S1x1x4096 .f32) (h5 : a5.IsWhole) (a6 : Memref sig .tc .vmem S1x512x1 .f32) (h6 : a6.IsWhole) (a7 : Memref sig .tc .vmem S1x1x4096 .f32) (h7 : a7.IsWhole) (hc : ¬cond0_0 i) (x0 : Vec F S1x512x3 .f32) (x1 : Vec F S1x4096x3 .f32) (x2 : Vec F S1x512x1 .f32) (x3 : Vec F S1x1x4096 .f32) (xo5 : Vec F S1x1x4096 .f32) :
    out0_B_4 c i a2 h2 a3 h3 a4 h4 a5 h5 a6 h6 a7 h7 hc x0 x1 x2 x3 xo5 = k0_pay4 x0 x1 x2 x3 := by
  unfold out0_B_4
  rw [View.read_writes_eq_canon _ _ _ (cover0_B_4 c i a2 h2 a3 h3 a4 h4 a5 h5 a6 h6 a7 h7 hc x0 x1 x2 x3 xo5)]
  unfold kernelRun0_B
  dsimp only
  sl_unfold_words
  rw [View.canon_unit_zero hz3]
  simp only [View.readAt_eq_ld, h2.read_unread, h3.read_unread, h4.read_unread, h5.read_unread, h7.read_unread, View.ld_unit_zero (S := S1x512x3) hz3, View.ld_unit_zero (S := S1x4096x3) hz3, View.ld_unit_zero (S := S1x512x1) hz3, View.ld_unit_zero (S := S1x1x4096) hz3]

/-- At a first tile the column block is reset to +∞, read back, and overwritten by the fold of this tile's column
    minima into that reset. -/
theorem colMin_first (c : Dev nD) (i : grid0.Coords) (a2 : Memref sig .tc .vmem S1x512x3 .f32) (h2 : a2.IsWhole) (a3 : Memref sig .tc .vmem S1x4096x3 .f32) (h3 : a3.IsWhole) (a4 : Memref sig .tc .vmem S1x512x1 .f32) (h4 : a4.IsWhole) (a5 : Memref sig .tc .vmem S1x1x4096 .f32) (h5 : a5.IsWhole) (a6 : Memref sig .tc .vmem S1x512x1 .f32) (h6 : a6.IsWhole) (a7 : Memref sig .tc .vmem S1x1x4096 .f32) (h7 : a7.IsWhole) (hc : cond0_0 i) (x0 : Vec F S1x512x3 .f32) (x1 : Vec F S1x4096x3 .f32) (x2 : Vec F S1x512x1 .f32) (x3 : Vec F S1x1x4096 .f32) :
    out0_A_5 c i a2 h2 a3 h3 a4 h4 a5 h5 a6 h6 a7 h7 hc x0 x1 x2 x3 = k0_pay1 (k0_pay5 x0 x1 x2 x3 (k0_pay2 (F := F))) := by
  unfold out0_A_5
  rw [View.read_writes_eq_canon _ _ _ (cover0_A_5 c i a2 h2 a3 h3 a4 h4 a5 h5 a6 h6 a7 h7 hc x0 x1 x2 x3)]
  unfold kernelRun0_A
  dsimp only
  sl_unfold_words
  rw [View.canon_cons_unit_zero (S := S1x1x4096) hz3, View.readCov_unit_zero (S := S1x1x4096) _ hz3]
  simp only [View.readAt_eq_ld, h2.read_unread, h3.read_unread, h4.read_unread, h5.read_unread, h7.read_unread, View.ld_unit_zero (S := S1x512x3) hz3, View.ld_unit_zero (S := S1x4096x3) hz3, View.ld_unit_zero (S := S1x512x1) hz3, View.ld_unit_zero (S := S1x1x4096) hz3]

/-- At a later tile the column block is overwritten by the fold of this tile's column minima into what it held. -/
theorem colMin_later (c : Dev nD) (i : grid0.Coords) (a2 : Memref sig .tc .vmem S1x512x3 .f32) (h2 : a2.IsWhole) (a3 : Memref sig .tc .vmem S1x4096x3 .f32) (h3 : a3.IsWhole) (a4 : Memref sig .tc .vmem S1x512x1 .f32) (h4 : a4.IsWhole) (a5 : Memref sig .tc .vmem S1x1x4096 .f32) (h5 : a5.IsWhole) (a6 : Memref sig .tc .vmem S1x512x1 .f32) (h6 : a6.IsWhole) (a7 : Memref sig .tc .vmem S1x1x4096 .f32) (h7 : a7.IsWhole) (hc : ¬cond0_0 i) (x0 : Vec F S1x512x3 .f32) (x1 : Vec F S1x4096x3 .f32) (x2 : Vec F S1x512x1 .f32) (x3 : Vec F S1x1x4096 .f32) (xo5 : Vec F S1x1x4096 .f32) :
    out0_B_5 c i a2 h2 a3 h3 a4 h4 a5 h5 a6 h6 a7 h7 hc x0 x1 x2 x3 xo5 = k0_pay1 (k0_pay5 x0 x1 x2 x3 xo5) := by
  unfold out0_B_5
  rw [View.read_writes_eq_canon _ _ _ (cover0_B_5 c i a2 h2 a3 h3 a4 h4 a5 h5 a6 h6 a7 h7 hc x0 x1 x2 x3 xo5)]
  unfold kernelRun0_B
  dsimp only
  sl_unfold_words
  rw [View.canon_unit_zero hz3]
  simp only [View.readAt_eq_ld, h2.read_unread, h3.read_unread, h4.read_unread, h5.read_unread, h7.read_unread, View.ld_unit_zero (S := S1x512x3) hz3, View.ld_unit_zero (S := S1x4096x3) hz3, View.ld_unit_zero (S := S1x512x1) hz3, View.ld_unit_zero (S := S1x1x4096) hz3]

end Cert.KernelIdeal.Body

end
-- ==== Proof.LibColumn.lean ====
/-
  Three readings at an index that the value library states for rows and not for columns: a vector cast to a column, a
  column broadcast across the lanes, and a minimum-reduction over one axis at the ideal values.
-/
import Idealize.ShloMosaic.Lib.Pipeline.Value
import Idealize.ShloMosaic.Lib.ValueIdx
import Idealize.ShloMosaic.PureOps.Ideal.Laws

namespace Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

namespace Idealize.ShloMosaic.Ideal

variable {φ : FTy}

/-- A float `vector.multi_reduction <minimumf>` over one axis, read at the ideal values: the fold of `min` from the
    accumulator's value over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Idealize.ShloMosaic.Ideal
-- ==== Proof.Spec.lean ====
/-
  The mathematics both programs compute, on the extended reals, with no program in sight.

  Two clouds of 4096 points in three coordinates, sixteen pairs of them.  For a pair, the squared distance between point
  `n` of the first cloud and point `j` of the second is expanded as |p|² + |q|² − 2·⟨p, q⟩; the nearest-neighbour
  distance of a point is the minimum of its row (or column) of that table.  A minimum started from the top element is
  determined by its lower bounds, which is how a column minimum taken tile by tile — eight tiles of 512 rows, each
  tile's minimum folded into a running one — is seen to be the minimum over all 4096 rows.
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- The pattern of +∞ is the top extended real. -/
theorem top_word : Ideal.ofBits .f32 0x7F800000#32 = (⊤ : EReal) := by simp [Ideal.ofBits, Ideal.ieee]

/-- A minimum started from the top element: its lower bounds are the common lower bounds of its entries. -/
theorem le_minOver_iff {ι : Type} (s : Finset ι) (f : ι → EReal) (x : EReal) :
    x ≤ s.fold min (⊤ : EReal) f ↔ ∀ i ∈ s, x ≤ f i := by
  rw [Finset.le_fold_min]
  exact ⟨fun h => h.2, fun h => ⟨le_top, h⟩⟩

/-- Sixteen clouds of 4096 points in three coordinates. -/
abbrev Pts := (⟨3, ![16, 4096, 3]⟩ : Shape).Idx → EReal

/-- |p|² of point `n` of cloud `b`, as a sum started from the zero pattern. -/
def sqn (p : Pts) (b : Fin 16) (n : Fin 4096) : EReal :=
  Ideal.ofBits .f32 0x00000000#32 + ∑ k : Fin 3, p (ix3 b n k) * p (ix3 b n k)

/-- The squared distance between point `n` of `p` and point `j` of `q` in pair `b`: |p|² + |q|² − 2·⟨p, q⟩. -/
def sqd (p q : Pts) (b : Fin 16) (n j : Fin 4096) : EReal :=
  (sqn p b n + sqn q b j) - Ideal.ofBits .f32 0x40000000#32 * ∑ k : Fin 3, p (ix3 b n k) * q (ix3 b j k)

/-- The distance from point `n` of the first cloud to its nearest neighbour in the second: a row's minimum. -/
def near1 (p q : Pts) (b : Fin 16) (n : Fin 4096) : EReal :=
  (Finset.univ : Finset (Fin 4096)).fold min (⊤ : EReal) fun j => sqd p q b n j

/-- The distance from point `j` of the second cloud to its nearest neighbour in the first: a column's minimum. -/
def near2 (p q : Pts) (b : Fin 16) (j : Fin 4096) : EReal :=
  (Finset.univ : Finset (Fin 4096)).fold min (⊤ : EReal) fun n => sqd p q b n j

/-- One tile more.  If `acc` is bounded below exactly by the entries of the first `k` tiles of 512 rows, then the
    smaller of `acc` and tile `k`'s own minimum is bounded below exactly by the entries of the first `k + 1` tiles. -/
theorem le_tile_step (f : Fin 4096 → EReal) (k : ℕ) (hk : 512 * (k + 1) ≤ 4096) (acc : EReal)
    (hacc : ∀ x, x ≤ acc ↔ ∀ n : Fin 4096, n.val < 512 * k → x ≤ f n)
    (g : Fin 512 → EReal) (hg : ∀ r : Fin 512, g r = f ⟨512 * k + r.val, by have := r.isLt; omega⟩) (x : EReal) :
    x ≤ min acc ((Finset.univ : Finset (Fin 512)).fold min (⊤ : EReal) g)
      ↔ ∀ n : Fin 4096, n.val < 512 * (k + 1) → x ≤ f n := by
  rw [le_min_iff, hacc, le_minOver_iff]
  constructor
  · rintro ⟨h1, h2⟩ n hn
    by_cases h : n.val < 512 * k
    · exact h1 n h
    · have h3 := h2 ⟨n.val - 512 * k, by omega⟩ (Finset.mem_univ _)
      rw [hg] at h3
      have e : (⟨512 * k + (n.val - 512 * k), by omega⟩ : Fin 4096) = n := Fin.ext (by show 512 * k + (n.val - 512 * k) = n.val; omega)
      rwa [e] at h3
  · intro h
    refine ⟨fun n hn => h n (by omega), fun r _ => ?_⟩
    rw [hg]
    exact h _ (by show 512 * k + r.val < 512 * (k + 1); have := r.isLt; omega)

/-- After the eighth tile the running minimum is the minimum over all 4096 rows. -/
theorem eq_minOver_of_le_iff (f : Fin 4096 → EReal) (v : EReal)
    (h : ∀ x, x ≤ v ↔ ∀ n : Fin 4096, n.val < 512 * (7 + 1) → x ≤ f n) :
    v = (Finset.univ : Finset (Fin 4096)).fold min (⊤ : EReal) f :=
  eq_of_forall_le_iff fun x => by
    rw [h, le_minOver_iff]
    exact ⟨fun h' n _ => h' n (by have := n.isLt; omega), fun h' n _ => h' n (Finset.mem_univ _)⟩

end Cert.Chamfer

end
-- ==== Proof.Payload.lean ====
/-
  The body's arithmetic read entry by entry on the extended reals: the table of squared distances of one tile, its row
  minima, and its column minima folded into a running block.
-/
import proofs.«119557_j61194694033711_1_alg».proof.Proof.Gen.KernelIdeal.Skeleton
import proofs.«119557_j61194694033711_1_alg».proof.Proof.LibColumn
import proofs.«119557_j61194694033711_1_alg».proof.Proof.Spec
import Idealize.ShloMosaic.Lib.ValueLayout

noncomputable section

open Idealize.ShloMosaic Idealize.ShloMosaic.ValueIdx

namespace Cert.KernelIdeal.Payload

open Cert.KernelIdeal Cert.KernelIdeal.Gen

/-! ## The product of a tile with the transposed second cloud -/

theorem lhs_row (i : S512x4096.Idx) (q : dot_S512x3_S4096x3_S512x4096_1_1_0_0_n_n.contr.Idx) :
    (dot_S512x3_S4096x3_S512x4096_1_1_0_0_n_n.lhsIdx i q 0).val = (i 0).val := by
  unfold DotDims.lhsIdx
  rw [dif_neg (show ¬(0 : Fin S512x3.rank) ∈ dot_S512x3_S4096x3_S512x4096_1_1_0_0_n_n.lhsBatch by decide), dif_pos (show (0 : Fin S512x3.rank) ∈ dot_S512x3_S4096x3_S512x4096_1_1_0_0_n_n.lhsNonContracting by decide)]
  rfl
theorem lhs_coord (i : S512x4096.Idx) (q : dot_S512x3_S4096x3_S512x4096_1_1_0_0_n_n.contr.Idx) :
    (dot_S512x3_S4096x3_S512x4096_1_1_0_0_n_n.lhsIdx i q 1).val = (q ⟨0, by decide⟩).val :=
  dot_S512x3_S4096x3_S512x4096_1_1_0_0_n_n.lhsIdx_val_of_single rfl i q
theorem rhs_row (i : S512x4096.Idx) (q : dot_S512x3_S4096x3_S512x4096_1_1_0_0_n_n.contr.Idx) :
    (dot_S512x3_S4096x3_S512x4096_1_1_0_0_n_n.rhsIdx i q 0).val = (i 1).val := by
  unfold DotDims.rhsIdx
  rw [dif_neg (show ¬(0 : Fin S4096x3.rank) ∈ dot_S512x3_S4096x3_S512x4096_1_1_0_0_n_n.rhsBatch by decide), dif_pos (show (0 : Fin S4096x3.rank) ∈ dot_S512x3_S4096x3_S512x4096_1_1_0_0_n_n.rhsNonContracting by decide)]
  rfl
theorem rhs_coord (i : S512x4096.Idx) (q : dot_S512x3_S4096x3_S512x4096_1_1_0_0_n_n.contr.Idx) :
    (dot_S512x3_S4096x3_S512x4096_1_1_0_0_n_n.rhsIdx i q 1).val = (q ⟨0, by decide⟩).val :=
  dot_S512x3_S4096x3_S512x4096_1_1_0_0_n_n.rhsIdx_val_of_single rfl i q

/-- Entry (r, j) of the product into a zero accumulator: the inner product of row `r` of the tile and row `j` of the
    second cloud. -/
theorem inner_apply (l : FVec Ideal S512x3 .bf16) (w : FVec Ideal S4096x3 .bf16) (r : Fin 512) (j : Fin 4096) :
    matmul dot_S512x3_S4096x3_S512x4096_1_1_0_0_n_n none l w (constant (F := Ideal) S512x4096 .f32 0x00000000#32) (ix2 r j)
      = ∑ k : Fin 3, l (ix2 r k) * w (ix2 j k) := by
  simp only [matmul]
  rw [Ideal.matmul_constant_zero_apply, ← Equiv.sum_comp (ValueIdx.contrEquiv1 dot_S512x3_S4096x3_S512x4096_1_1_0_0_n_n 3 rfl rfl).symm]
  refine Finset.sum_congr rfl fun k _ => ?_
  have hk := ValueIdx.contrEquiv1_symm_val dot_S512x3_S4096x3_S512x4096_1_1_0_0_n_n 3 rfl rfl k
  have el : dot_S512x3_S4096x3_S512x4096_1_1_0_0_n_n.lhsIdx (ix2 r j) ((ValueIdx.contrEquiv1 dot_S512x3_S4096x3_S512x4096_1_1_0_0_n_n 3 rfl rfl).symm k) = ix2 r k := funext fun a => Fin.ext (by
    match a with
    | ⟨0, _⟩ => exact lhs_row _ _
    | ⟨1, _⟩ => exact (lhs_coord _ _).trans hk)
  have er : dot_S512x3_S4096x3_S512x4096_1_1_0_0_n_n.rhsIdx (ix2 r j) ((ValueIdx.contrEquiv1 dot_S512x3_S4096x3_S512x4096_1_1_0_0_n_n 3 rfl rfl).symm k) = ix2 j k := funext fun a => Fin.ext (by
    match a with
    | ⟨0, _⟩ => exact rhs_row _ _
    | ⟨1, _⟩ => exact (rhs_coord _ _).trans hk)
  rw [el, er]

/-! ## The tile's table of squared distances -/

/-- Entry (r, j) of the tile's table: the squared norm handed in for row `r`, plus the one handed in for column `j`,
    minus twice the inner product of the two points. -/
theorem table_apply (x0 : Vec Ideal S1x512x3 .f32) (x1 : Vec Ideal S1x4096x3 .f32) (x2 : Vec Ideal S1x512x1 .f32)
    (x3 : Vec Ideal S1x1x4096 .f32) (r : Fin 512) (j : Fin 4096) :
    k0_pay3 (F := Ideal) x0 x1 x2 x3 (ix2 r j)
      = (x2 (ix3 (0 : Fin 1) r (0 : Fin 1)) + x3 (ix3 (0 : Fin 1) (0 : Fin 1) j))
        - Ideal.ofBits .f32 0x40000000#32 * ∑ k : Fin 3, x0 (ix3 (0 : Fin 1) r k) * x1 (ix3 (0 : Fin 1) j k) := by
  unfold k0_pay3
  rw [subf_apply, addf_apply, mulf_apply, broadcast_apply, broadcastTo_a1_ab_apply, broadcastTo_1b_ab_apply,
    shapeCast_1ab_ab_apply, shapeCast_1ab_ab_apply, inner_apply]
  simp only [truncf_apply, shapeCast_1ab_ab_apply, Ideal.ofBits_def]

/-! ## Its row minima, its column minima, the reset -/

theorem lift_lane (h : S512x4096.Reduces [1] S512) (r : Fin 512) (j : Fin 4096) : h.lift (ix1 r) j = ix2 r j :=
  funext fun a => Fin.ext (by match a with | ⟨0, _⟩ => rfl | ⟨1, _⟩ => rfl)

theorem lift_row (h : S512x4096.Reduces [0] S4096) (j : Fin 4096) (r : Fin 512) : h.lift (ix1 j) r = ix2 r j :=
  funext fun a => Fin.ext (by match a with | ⟨0, _⟩ => rfl | ⟨1, _⟩ => rfl)

/-- Row `r` of the first output block: the minimum, from +∞, of row `r` of the table. -/
theorem rowMin_apply (x0 : Vec Ideal S1x512x3 .f32) (x1 : Vec Ideal S1x4096x3 .f32) (x2 : Vec Ideal S1x512x1 .f32)
    (x3 : Vec Ideal S1x1x4096 .f32) (r : Fin 512) :
    k0_pay4 (F := Ideal) x0 x1 x2 x3 (ix3 (0 : Fin 1) r (0 : Fin 1))
      = (Finset.univ : Finset (Fin 4096)).fold min (⊤ : EReal) fun j => k0_pay3 (F := Ideal) x0 x1 x2 x3 (ix2 r j) := by
  unfold k0_pay4
  rw [shapeCast_ab_1ab_apply, shapeCast_a_a1_apply]
  refine (Ideal.multiReduction_minimumf_single (k0_pay3 (F := Ideal) x0 x1 x2 x3) 0x7F800000#32 reduces_S512x4096_S512 _ _ (ix1 r)).trans ?_
  rw [Ideal.ofBits_def, Cert.Chamfer.top_word]
  exact congrArg (fun f => (Finset.univ : Finset (Fin 4096)).fold min (⊤ : EReal) f)
    (funext fun j => congrArg (k0_pay3 (F := Ideal) x0 x1 x2 x3) (lift_lane _ r j))

/-- Lane `j` of the second output block: the smaller of what the block held there and the minimum, from +∞, of column
    `j` of the table. -/
theorem colFold_apply (x0 : Vec Ideal S1x512x3 .f32) (x1 : Vec Ideal S1x4096x3 .f32) (x2 : Vec Ideal S1x512x1 .f32)
    (x3 : Vec Ideal S1x1x4096 .f32) (acc : Vec Ideal S1x1x4096 .f32) (j : Fin 4096) :
    k0_pay1 (F := Ideal) (k0_pay5 (F := Ideal) x0 x1 x2 x3 acc) (ix3 (0 : Fin 1) (0 : Fin 1) j)
      = min (acc (ix3 (0 : Fin 1) (0 : Fin 1) j))
          ((Finset.univ : Finset (Fin 512)).fold min (⊤ : EReal) fun r => k0_pay3 (F := Ideal) x0 x1 x2 x3 (ix2 r j)) := by
  unfold k0_pay1 k0_pay5
  rw [shapeCast_ab_1ab_apply, minimumf_apply, shapeCast_1ab_ab_apply, shapeCast_a_1a_apply]
  refine congrArg (min (acc (ix3 (0 : Fin 1) (0 : Fin 1) j))) ?_
  refine (Ideal.multiReduction_minimumf_single (k0_pay3 (F := Ideal) x0 x1 x2 x3) 0x7F800000#32 reduces_S512x4096_S4096 _ _ (ix1 j)).trans ?_
  rw [Ideal.ofBits_def, Cert.Chamfer.top_word]
  exact congrArg (fun f => (Finset.univ : Finset (Fin 512)).fold min (⊤ : EReal) f)
    (funext fun r => congrArg (k0_pay3 (F := Ideal) x0 x1 x2 x3) (lift_row _ j r))

/-- The reset block is +∞ in every lane. -/
theorem reset_apply (j : Fin 4096) : k0_pay2 (F := Ideal) (ix3 (0 : Fin 1) (0 : Fin 1) j) = (⊤ : EReal) := by
  unfold k0_pay2
  rw [shapeCast_ab_1ab_apply, broadcast_apply]
  exact Cert.Chamfer.top_word

end Cert.KernelIdeal.Payload

end
-- ==== Proof.Blocks.lean ====
/-
  What the kernel's windows hand the body at a grid point.  Point `t` of the 16 × 8 grid is tile `t % 8` of pair
  `t / 8`: the body gets rows 512·(t % 8) … of the first cloud and of its squared norms, and the whole second cloud of
  the pair with its squared norms laid out along the lanes.  The two arrays of squared norms are what @main computes
  before the region.
-/
import proofs.«119557_j61194694033711_1_alg».proof.Proof.Gen.KernelIdeal.Frame
import proofs.«119557_j61194694033711_1_alg».proof.Proof.LibColumn
import proofs.«119557_j61194694033711_1_alg».proof.Proof.Spec
import Idealize.ShloMosaic.Lib.Pipeline.Value
import Idealize.ShloMosaic.Lib.StableHlo.Run
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-! ## The block indices over the grid -/

theorem index_tile : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem index_cloud : ∀ t : Fin cfg0.N, win0_1.index t (0 : Fin 3) = t.val / 8 ∧ win0_1.index t (1 : Fin 3) = 0 ∧ win0_1.index t (2 : Fin 3) = 0 :=
  (by decide +kernel : ∀ t : Fin grid0.N, _)
theorem index_tileNorm : ∀ t : Fin cfg0.N, win0_2.index t (0 : Fin 3) = t.val / 8 ∧ win0_2.index t (1 : Fin 3) = t.val % 8 ∧ win0_2.index t (2 : Fin 3) = 0 :=
  (by decide +kernel : ∀ t : Fin grid0.N, _)
theorem index_cloudNorm : ∀ t : Fin cfg0.N, win0_3.index t (0 : Fin 3) = t.val / 8 ∧ win0_3.index t (1 : Fin 3) = 0 ∧ win0_3.index t (2 : Fin 3) = 0 :=
  (by decide +kernel : ∀ t : Fin grid0.N, _)

/-! ## The blocks, at their literal types -/

abbrev tileBlk (c : Dev nD) (t : Fin cfg0.N) : Vec F S1x512x3 .f32 := iblk m c 0 t
abbrev cloudBlk (c : Dev nD) (t : Fin cfg0.N) : Vec F S1x4096x3 .f32 := iblk m c 1 t
abbrev tileNorm (c : Dev nD) (t : Fin cfg0.N) : Vec F S1x512x1 .f32 := iblk m c 2 t
abbrev cloudNorm (c : Dev nD) (t : Fin cfg0.N) : Vec F S1x1x4096 .f32 := iblk m c 3 t

/-- Row `r` of the tile at point `t` is point 512·(t % 8) + r of cloud t / 8 of the first argument. -/
theorem tileBlk_apply (c : Dev nD) (t : Fin cfg0.N) (b : Fin 16) (n : Fin 4096) (r : Fin 512) (k : Fin 3)
    (hb : b.val = t.val / 8) (hn : n.val = 512 * (t.val % 8) + r.val) :
    tileBlk m c t (ix3 (0 : Fin 1) r k) = m ((c : Thread nD τ).loc main_arg0) (ix3 b n k) := by
  unfold tileBlk iblk
  rw [View.read_apply]
  show V m c main_arg0 _ = _
  rw [V_main_arg0 m c]
  congr 1
  funext a
  apply Fin.ext
  match a with
  | ⟨0, _⟩ => show win0_0.index t (0 : Fin 3) * 1 + 1 * 0 = b.val; rw [(index_tile t).1]; omega
  | ⟨1, _⟩ => show win0_0.index t (1 : Fin 3) * 512 + 1 * r.val = n.val; rw [(index_tile t).2.1]; omega
  | ⟨2, _⟩ => show win0_0.index t (2 : Fin 3) * 3 + 1 * k.val = k.val; rw [(index_tile t).2.2]; omega

/-- Row `j` of the second block at point `t` is point `j` of cloud t / 8 of the second argument. -/
theorem cloudBlk_apply (c : Dev nD) (t : Fin cfg0.N) (b : Fin 16) (j : Fin 4096) (k : Fin 3) (hb : b.val = t.val / 8) :
    cloudBlk m c t (ix3 (0 : Fin 1) j k) = m ((c : Thread nD τ).loc main_arg1) (ix3 b j k) := by
  unfold cloudBlk iblk
  rw [View.read_apply]
  show V m c main_arg1 _ = _
  rw [V_main_arg1 m c]
  congr 1
  funext a
  apply Fin.ext
  match a with
  | ⟨0, _⟩ => show win0_1.index t (0 : Fin 3) * 1 + 1 * 0 = b.val; rw [(index_cloud t).1]; omega
  | ⟨1, _⟩ => show win0_1.index t (1 : Fin 3) * 4096 + 1 * j.val = j.val; rw [(index_cloud t).2.1]; omega
  | ⟨2, _⟩ => show win0_1.index t (2 : Fin 3) * 3 + 1 * k.val = k.val; rw [(index_cloud t).2.2]; omega

/-- Row `r` of the third block is entry 512·(t % 8) + r of cloud t / 8 of the first array of squared norms. -/
theorem tileNorm_apply (c : Dev nD) (t : Fin cfg0.N) (b : Fin 16) (n : Fin 4096) (r : Fin 512)
    (hb : b.val = t.val / 8) (hn : n.val = 512 * (t.val % 8) + r.val) :
    tileNorm m c t (ix3 (0 : Fin 1) r (0 : Fin 1)) = V m c main_v2 (ix3 b n (0 : Fin 1)) := by
  unfold tileNorm iblk
  rw [View.read_apply]
  show V m c main_v2 _ = _
  congr 1
  funext a
  apply Fin.ext
  match a with
  | ⟨0, _⟩ => show win0_2.index t (0 : Fin 3) * 1 + 1 * 0 = b.val; rw [(index_tileNorm t).1]; omega
  | ⟨1, _⟩ => show win0_2.index t (1 : Fin 3) * 512 + 1 * r.val = n.val; rw [(index_tileNorm t).2.1]; omega
  | ⟨2, _⟩ => show win0_2.index t (2 : Fin 3) * 1 + 1 * 0 = 0; rw [(index_tileNorm t).2.2]

/-- Lane `j` of the fourth block is entry `j` of cloud t / 8 of the second array of squared norms. -/
theorem cloudNorm_apply (c : Dev nD) (t : Fin cfg0.N) (b : Fin 16) (j : Fin 4096) (hb : b.val = t.val / 8) :
    cloudNorm m c t (ix3 (0 : Fin 1) (0 : Fin 1) j) = V m c main_v6 (ix3 b (0 : Fin 1) j) := by
  unfold cloudNorm iblk
  rw [View.read_apply]
  show V m c main_v6 _ = _
  congr 1
  funext a
  apply Fin.ext
  match a with
  | ⟨0, _⟩ => show win0_3.index t (0 : Fin 3) * 1 + 1 * 0 = b.val; rw [(index_cloudNorm t).1]; omega
  | ⟨1, _⟩ => show win0_3.index t (1 : Fin 3) * 1 + 1 * 0 = 0; rw [(index_cloudNorm t).2.1]
  | ⟨2, _⟩ => show win0_3.index t (2 : Fin 3) * 4096 + 1 * j.val = j.val; rw [(index_cloudNorm t).2.2]; omega

/-! ## The squared norms @main computes before the region -/

theorem V_norm1 (c : Dev nD) : V m c main_v2 = broadcastInDim S16x4096x1 ![0, 1] bcast_S16x4096_S16x4096x1_0_1
    (Host.reduceAdd (mulf (m ((c : Thread nD τ).loc main_arg0)) (m ((c : Thread nD τ).loc main_arg0))) (constant (F := F) S_ .f32 0x00000000#32) reducesTo_S16x4096x3_S16x4096_d2 h_S_) := by
  show StableHlo.after hostOps0 (fun b => m (c, b)) (Proc.devRef .tc main_v2) = _
  after_results

theorem V_norm2 (c : Dev nD) : V m c main_v6 = transpose S16x1x4096 [0, 2, 1] (broadcastInDim S16x4096x1 ![0, 1] bcast_S16x4096_S16x4096x1_0_1
    (Host.reduceAdd (mulf (m ((c : Thread nD τ).loc main_arg1)) (m ((c : Thread nD τ).loc main_arg1))) (constant (F := F) S_ .f32 0x00000000#32) reducesTo_S16x4096x3_S16x4096_d2 h_S_)) transposes_S16x4096x1_S16x1x4096_0_2_1 := by
  show StableHlo.after hostOps0 (fun b => m (c, b)) (Proc.devRef .tc main_v6) = _
  after_results

/-! ## Read on the extended reals -/

section AtIdeal

variable (μ : (ℓ : Loc nD τ sig) → Buf (Elt Ideal) ℓ)

/-- The host's squared norms of a cloud array, kept as a column, at (b, n, 0): |p|² of point `n` of cloud `b`. -/
theorem normColumn_apply (p : FVec Ideal S16x4096x3 .f32) (b : Fin 16) (n : Fin 4096) :
    broadcastInDim S16x4096x1 ![0, 1] bcast_S16x4096_S16x4096x1_0_1
        (Host.reduceAdd (mulf p p) (constant (F := Ideal) S_ .f32 0x00000000#32) reducesTo_S16x4096x3_S16x4096_d2 h_S_) (ix3 b n (0 : Fin 1))
      = Cert.Chamfer.sqn p b n := by
  rw [broadcastInDim_apply _ bcast_S16x4096_S16x4096x1_0_1 _ (ix3 b n (0 : Fin 1)) (ix2 b n) (fun a => match a with
    | ⟨0, _⟩ => by show b.val = if (16 : Nat) = 1 then 0 else b.val; rw [if_neg (by decide)]
    | ⟨1, _⟩ => by show n.val = if (4096 : Nat) = 1 then 0 else n.val; rw [if_neg (by decide)])]
  simp only [Host.reduceAdd, Ideal.hostReduceAdd_def]
  rw [Ideal.hostReduceAdd_single reducesTo_S16x4096x3_S16x4096_d2 (by decide)]
  unfold Cert.Chamfer.sqn
  refine congrArg₂ (· + ·) rfl (Finset.sum_congr rfl fun k _ => ?_)
  exact congrArg (fun i => p i * p i) (funext fun a => Fin.ext (by match a with | ⟨0, _⟩ => rfl | ⟨1, _⟩ => rfl | ⟨2, _⟩ => rfl))

/-- The first array of squared norms at (b, n, 0). -/
theorem norm1_apply (c : Dev nD) (b : Fin 16) (n : Fin 4096) :
    V μ c main_v2 (ix3 b n (0 : Fin 1)) = Cert.Chamfer.sqn (μ ((c : Thread nD τ).loc main_arg0)) b n := by
  rw [V_norm1]
  exact normColumn_apply _ b n

/-- The second array of squared norms, transposed to lie along the lanes, at (b, 0, j). -/
theorem norm2_apply (c : Dev nD) (b : Fin 16) (j : Fin 4096) :
    V μ c main_v6 (ix3 b (0 : Fin 1) j) = Cert.Chamfer.sqn (μ ((c : Thread nD τ).loc main_arg1)) b j := by
  rw [V_norm2, transpose_ix3_021_apply]
  exact normColumn_apply _ b j

end AtIdeal

end Cert.KernelIdeal.Blocks

end
-- ==== Proof.Fold.lean ====
/-
  What the two output blocks hold after each grid point.

  The block of row minima is rewritten whole at every point.  The block of column minima is carried from tile to tile
  of one pair of clouds: after tile `k` its lane `j` is bounded below exactly by the squared distances from the first
  512·(k + 1) points of the first cloud to point `j` of the second — by induction on the point, a first tile
  starting from +∞.  After the eighth tile that is the column's minimum over the whole first cloud.
-/
import proofs.«119557_j61194694033711_1_alg».proof.Proof.Body
import proofs.«119557_j61194694033711_1_alg».proof.Proof.Payload
import proofs.«119557_j61194694033711_1_alg».proof.Proof.Blocks

noncomputable section

open Idealize.ShloMosaic Idealize.ShloMosaic.TcCoe Idealize.SL.Sem Idealize.ShloMosaic.ValueIdx
open Idealize.ShloMosaic.Pipeline (Dat)

namespace Cert.KernelIdeal.Fold

open Cert.KernelIdeal Cert.KernelIdeal.Gen Cert.KernelIdeal.Blocks

section AnyValues

variable {F : FTy → Type} [FloatOps F]
variable (m : (ℓ : Loc nD τ sig) → Buf (Elt F) ℓ)

/-- After any point the first output block holds the row minima of that point's table. -/
theorem rowBlock_eq (c : Dev nD) (t : Fin cfg0.N) :
    (outsAt0 m c t.val t.isLt).1 = k0_pay4 (tileBlk m c t) (cloudBlk m c t) (tileNorm m c t) (cloudNorm m c t) := by
  by_cases h0 : t.val % 8 = 0
  · rw [outsAt0_A m c t h0]
    dsimp only
    exact Body.rowMin_first c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) (iblk m c 3 t)
  · rw [outsAt0_B m c t h0]
    dsimp only
    exact Body.rowMin_later c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (iblk m c 3 t) (outsAt0 m c (t.val - 1) (Nat.lt_of_le_of_lt (Nat.sub_le _ _) t.isLt)).2

/-- After a first tile the second output block holds that tile's column minima folded into the reset block. -/
theorem colBlock_first (c : Dev nD) (t : Fin cfg0.N) (h0 : t.val % 8 = 0) :
    (outsAt0 m c t.val t.isLt).2
      = k0_pay1 (k0_pay5 (tileBlk m c t) (cloudBlk m c t) (tileNorm m c t) (cloudNorm m c t) (k0_pay2 (F := F))) := by
  rw [outsAt0_A m c t h0]
  dsimp only
  exact Body.colMin_first c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) (iblk m c 3 t)

/-- After a later tile it holds that tile's column minima folded into what the tile before left. -/
theorem colBlock_later (c : Dev nD) (t : Fin cfg0.N) (h0 : ¬t.val % 8 = 0) :
    (outsAt0 m c t.val t.isLt).2
      = k0_pay1 (k0_pay5 (tileBlk m c t) (cloudBlk m c t) (tileNorm m c t) (cloudNorm m c t)
          (outsAt0 m c (t.val - 1) (Nat.lt_of_le_of_lt (Nat.sub_le _ _) t.isLt)).2) := by
  rw [outsAt0_B m c t h0]
  dsimp only
  exact Body.colMin_later c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (iblk m c 3 t) (outsAt0 m c (t.val - 1) (Nat.lt_of_le_of_lt (Nat.sub_le _ _) t.isLt)).2

end AnyValues

/-! ## On the extended reals -/

section AtIdeal

open Cert.Chamfer

variable (μ : (ℓ : Loc nD τ sig) → Buf (Elt Ideal) ℓ)

/-- The two argument arrays as clouds of points. -/
abbrev P (c : Dev nD) : Pts := μ ((c : Thread nD τ).loc main_arg0)
abbrev Q (c : Dev nD) : Pts := μ ((c : Thread nD τ).loc main_arg1)

/-- Entry (r, j) of the table at point `t`: the squared distance, in pair t / 8, between point 512·(t % 8) + r of the
    first cloud and point `j` of the second. -/
theorem table_at (c : Dev nD) (t : Fin cfg0.N) (b : Fin 16) (hb : b.val = t.val / 8) (r : Fin 512) (n : Fin 4096)
    (hn : n.val = 512 * (t.val % 8) + r.val) (j : Fin 4096) :
    k0_pay3 (F := Ideal) (tileBlk μ c t) (cloudBlk μ c t) (tileNorm μ c t) (cloudNorm μ c t) (ix2 r j)
      = sqd (P μ c) (Q μ c) b n j := by
  refine (Payload.table_apply (tileBlk μ c t) (cloudBlk μ c t) (tileNorm μ c t) (cloudNorm μ c t) r j).trans ?_
  rw [tileNorm_apply μ c t b n r hb hn, cloudNorm_apply μ c t b j hb, norm1_apply, norm2_apply]
  unfold sqd
  refine congrArg (fun s => _ - _ * s) (Finset.sum_congr rfl fun k _ => ?_)
  rw [tileBlk_apply μ c t b n r k hb hn, cloudBlk_apply μ c t b j k hb]

/-- Row `r` of the first output block after point `t`: the nearest-neighbour distance of point 512·(t % 8) + r. -/
theorem rowBlock_apply (c : Dev nD) (t : Fin cfg0.N) (b : Fin 16) (hb : b.val = t.val / 8) (r : Fin 512) (n : Fin 4096)
    (hn : n.val = 512 * (t.val % 8) + r.val) :
    (outsAt0 μ c t.val t.isLt).1 (ix3 (0 : Fin 1) r (0 : Fin 1)) = near1 (P μ c) (Q μ c) b n := by
  rw [rowBlock_eq μ c t]
  refine (Payload.rowMin_apply (tileBlk μ c t) (cloudBlk μ c t) (tileNorm μ c t) (cloudNorm μ c t) r).trans ?_
  unfold near1
  exact congrArg (fun f => (Finset.univ : Finset (Fin 4096)).fold min (⊤ : EReal) f) (funext fun j => table_at μ c t b hb r n hn j)

/-- A first tile: lane `j` of the second output block is bounded below exactly by the first 512 entries of column `j`. -/
theorem first_le_iff (c : Dev nD) (t : Fin cfg0.N) (h0 : t.val % 8 = 0) (b : Fin 16) (hb : b.val = t.val / 8) (j : Fin 4096) (x : EReal) :
    x ≤ (outsAt0 μ c t.val t.isLt).2 (ix3 (0 : Fin 1) (0 : Fin 1) j)
      ↔ ∀ i : Fin 4096, i.val < 512 * (t.val % 8 + 1) → x ≤ sqd (P μ c) (Q μ c) b i j := by
  rw [colBlock_first μ c t h0]
  rw [show _ = _ from Payload.colFold_apply (tileBlk μ c t) (cloudBlk μ c t) (tileNorm μ c t) (cloudNorm μ c t) (k0_pay2 (F := Ideal)) j]
  rw [Payload.reset_apply, h0]
  exact le_tile_step (fun i => sqd (P μ c) (Q μ c) b i j) 0 (by norm_num) ⊤
    (fun y => ⟨fun _ i hi => absurd hi (by omega), fun _ => le_top⟩) _
    (fun r => table_at μ c t b hb r ⟨512 * 0 + r.val, by have := r.isLt; omega⟩ (by show 512 * 0 + r.val = 512 * (t.val % 8) + r.val; rw [h0]) j) x

/-- A later tile: if the block the tile found was bounded below exactly by the entries of the tiles before, the block it
    leaves is bounded below exactly by those and its own 512. -/
theorem later_le_iff (c : Dev nD) (t : Fin cfg0.N) (h0 : ¬t.val % 8 = 0) (b : Fin 16) (hb : b.val = t.val / 8) (j : Fin 4096)
    (ih : ∀ y : EReal, y ≤ (outsAt0 μ c (t.val - 1) (Nat.lt_of_le_of_lt (Nat.sub_le _ _) t.isLt)).2 (ix3 (0 : Fin 1) (0 : Fin 1) j)
      ↔ ∀ i : Fin 4096, i.val < 512 * ((t.val - 1) % 8 + 1) → y ≤ sqd (P μ c) (Q μ c) b i j) (x : EReal) :
    x ≤ (outsAt0 μ c t.val t.isLt).2 (ix3 (0 : Fin 1) (0 : Fin 1) j)
      ↔ ∀ i : Fin 4096, i.val < 512 * (t.val % 8 + 1) → x ≤ sqd (P μ c) (Q μ c) b i j := by
  rw [colBlock_later μ c t h0]
  rw [show _ = _ from Payload.colFold_apply (tileBlk μ c t) (cloudBlk μ c t) (tileNorm μ c t) (cloudNorm μ c t)
    (outsAt0 μ c (t.val - 1) (Nat.lt_of_le_of_lt (Nat.sub_le _ _) t.isLt)).2 j]
  have hk : (t.val - 1) % 8 + 1 = t.val % 8 := by omega
  exact le_tile_step (fun i => sqd (P μ c) (Q μ c) b i j) (t.val % 8) (by omega) _
    (fun y => by rw [← hk]; exact ih y) _
    (fun r => table_at μ c t b hb r ⟨512 * (t.val % 8) + r.val, by have := r.isLt; omega⟩ rfl j) x

/-- After tile `t % 8` of pair `t / 8`, lane `j` of the second output block is bounded below exactly by the squared
    distances from the first 512·(t % 8 + 1) points of the first cloud to point `j` of the second. -/
theorem colBlock_le_iff (c : Dev nD) (N : ℕ) : ∀ t : Fin cfg0.N, t.val = N → ∀ (b : Fin 16), b.val = t.val / 8 → ∀ (j : Fin 4096) (x : EReal),
    x ≤ (outsAt0 μ c t.val t.isLt).2 (ix3 (0 : Fin 1) (0 : Fin 1) j)
      ↔ ∀ i : Fin 4096, i.val < 512 * (t.val % 8 + 1) → x ≤ sqd (P μ c) (Q μ c) b i j := by
  induction N with
  | zero =>
    intro t ht b hb j x
    exact first_le_iff μ c t (by omega) b hb j x
  | succ N ih =>
    intro t ht b hb j x
    by_cases h0 : t.val % 8 = 0
    · exact first_le_iff μ c t h0 b hb j x
    · exact later_le_iff μ c t h0 b hb j
        (ih ⟨t.val - 1, Nat.lt_of_le_of_lt (Nat.sub_le _ _) t.isLt⟩ (by show t.val - 1 = N; omega) b (by show b.val = (t.val - 1) / 8; omega) j) x

/-- After the last tile of a pair the second output block holds the column minima over the whole first cloud. -/
theorem colBlock_last (c : Dev nD) (t : Fin cfg0.N) (h7 : t.val % 8 = 7) (b : Fin 16) (hb : b.val = t.val / 8) (j : Fin 4096) :
    (outsAt0 μ c t.val t.isLt).2 (ix3 (0 : Fin 1) (0 : Fin 1) j) = near2 (P μ c) (Q μ c) b j :=
  eq_minOver_of_le_iff (fun i => sqd (P μ c) (Q μ c) b i j) _ fun x => by
    have h := colBlock_le_iff μ c t.val t rfl b hb j x
    rwa [h7] at h

end AtIdeal

end Cert.KernelIdeal.Fold

end
-- ==== Proof.Arrays.lean ====
/-
  The two result arrays of the region after its run.

  Every point writes its block of row minima back to rows 512·(t % 8) … of pair t / 8, so the first array ends holding
  every point's nearest-neighbour distance.  The block of column minima is written back after the last tile of a pair
  only, when it holds the minima over the whole first cloud; the sixteen write-backs fill the second array.
-/
import proofs.«119557_j61194694033711_1_alg».proof.Proof.Fold

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.KernelIdeal.Blocks Cert.KernelIdeal.Fold Cert.Chamfer

variable (μ : (ℓ : Loc nD τ sig) → Buf (Elt Ideal) ℓ)

theorem index_rows : ∀ t : Fin cfg0.N, win0_4.index t (0 : Fin 3) = t.val / 8 ∧ win0_4.index t (1 : Fin 3) = t.val % 8 ∧ win0_4.index t (2 : Fin 3) = 0 :=
  (by decide +kernel : ∀ t : Fin grid0.N, _)
theorem index_cols : ∀ t : Fin cfg0.N, win0_5.index t (0 : Fin 3) = t.val / 8 ∧ win0_5.index t (1 : Fin 3) = 0 ∧ win0_5.index t (2 : Fin 3) = 0 :=
  (by decide +kernel : ∀ t : Fin grid0.N, _)

/-! ## The array of row minima -/

/-- What the first result array ends holding: at (b, n, 0) the nearest-neighbour distance of point `n` of cloud `b`. -/
abbrev rowArr (c : Dev nD) : Buf (Elt Ideal) ((c : Thread nD τ).loc main_v7_0) :=
  fun i : S16x4096x1.Idx => near1 (P μ c) (Q μ c) (i 0) (i 1)

/-- Entry `y` of the block of row minima after point `t`. -/
theorem rowBlock_at (c : Dev nD) (t : Fin cfg0.N) (hN : t.val < 128) (y : S1x512x1.Idx) :
    (outsAt0 μ c t.val t.isLt).1 y
      = near1 (P μ c) (Q μ c) ⟨t.val / 8, by omega⟩ ⟨512 * (t.val % 8) + (y 1).val, by have : (y 1).val < 512 := (y 1).isLt; omega⟩ := by
  obtain ⟨u, r, v, rfl⟩ : ∃ (u : Fin 1) (r : Fin 512) (v : Fin 1), y = ix3 u r v := ⟨y 0, y 1, y 2, eq_ix3 y⟩
  obtain rfl : u = 0 := Subsingleton.elim _ _
  obtain rfl : v = 0 := Subsingleton.elim _ _
  exact rowBlock_apply μ c t _ rfl r _ rfl

/-- What point `t` writes back is block `t` of that array. -/
theorem rows_flushed (c : Dev nD) (t : Fin cfg0.N) :
    (dats μ 0 c).flushed 4 t = ((cfg0.win 4).blk t).view.read (Elt Ideal) (rowArr μ c) := by
  show (cfg0.win 4).cut (grid0.coords t) ((dats μ 0 c).after 4 t) = _
  rw [after0_4]
  have hN : t.val < 128 := lt_of_lt_of_eq t.isLt N_0
  funext y
  show (outsAt0 μ c t.val t.isLt).1 y = rowArr μ c (((cfg0.win 4).blk t).view.emb y)
  refine (rowBlock_at μ c t hN y).trans ?_
  show near1 _ _ _ _ = near1 (P μ c) (Q μ c) ((((cfg0.win 4).blk t).view.emb y) 0) ((((cfg0.win 4).blk t).view.emb y) 1)
  have hy0 : (y 0).val = 0 := by have : (y 0).val < 1 := (y 0).isLt; omega
  congr 1
  · apply Fin.ext
    show t.val / 8 = win0_4.index t (0 : Fin 3) * 1 + 1 * (y 0).val
    rw [(index_rows t).1, hy0]; omega
  · apply Fin.ext
    show 512 * (t.val % 8) + (y 1).val = win0_4.index t (1 : Fin 3) * 512 + 1 * (y 1).val
    rw [(index_rows t).2.1]; omega

/-- An index of the first result array lies in point `t`'s block iff each coordinate lies in the block's range. -/
theorem rows_mem (t : Fin cfg0.N) (i : S16x4096x1.Idx) :
    i ∈ ((cfg0.win 4).blk t).view.set ↔ ∀ a : Fin 3, win0_4.index t a * S1x512x1.size a ≤ (i a).val ∧ (i a).val < win0_4.index t a * S1x512x1.size a + S1x512x1.size a := by
  show i ∈ ((View.whole main_v7_0).slice (win0_4.rect t)).set ↔ _
  rw [View.set_slice_whole, Rect.mem_set_unit]
  exact Iff.rfl

/-- Entry (b, n, 0) is written back by tile n / 512 of pair `b`. -/
theorem rows_cover (i : S16x4096x1.Idx) : ∃ t : Fin cfg0.N, (cfg0.win 4).flush t = true ∧ i ∈ ((cfg0.win 4).blk t).view.set := by
  have h0 : (i 0).val < 16 := (i 0).isLt
  have h1 : (i 1).val < 4096 := (i 1).isLt
  have h2 : (i 2).val < 1 := (i 2).isLt
  have hN : cfg0.N = 128 := N_0
  refine ⟨⟨8 * (i 0).val + (i 1).val / 512, by rw [hN]; omega⟩, flush0_4 _, ?_⟩
  rw [rows_mem]
  obtain ⟨e0, e1, e2⟩ := index_rows ⟨8 * (i 0).val + (i 1).val / 512, by rw [hN]; omega⟩
  intro a
  match a with
  | ⟨0, _⟩ => show win0_4.index _ (0 : Fin 3) * 1 ≤ (i 0).val ∧ (i 0).val < win0_4.index _ (0 : Fin 3) * 1 + 1; rw [e0]; dsimp only; omega
  | ⟨1, _⟩ => show win0_4.index _ (1 : Fin 3) * 512 ≤ (i 1).val ∧ (i 1).val < win0_4.index _ (1 : Fin 3) * 512 + 512; rw [e1]; dsimp only; omega
  | ⟨2, _⟩ => show win0_4.index _ (2 : Fin 3) * 1 ≤ (i 2).val ∧ (i 2).val < win0_4.index _ (2 : Fin 3) * 1 + 1; rw [e2]; omega

/-- The first result array after the run. -/
theorem rows_final (c : Dev nD) : (dats μ 0 c).arrAt 4 cfg0.N = rowArr μ c :=
  (dats μ 0 c).arrAt_eq_of_cover 4 (rowArr μ c) (fun t _ => rows_flushed μ c t) rows_cover

/-! ## The array of column minima -/

/-- What the second result array ends holding: at (b, 0, j) the nearest-neighbour distance of point `j` of the second
    cloud of pair `b`. -/
abbrev colArr (c : Dev nD) : Buf (Elt Ideal) ((c : Thread nD τ).loc main_v7_1) :=
  fun i : S16x1x4096.Idx => near2 (P μ c) (Q μ c) (i 0) (i 2)

/-- Lane `y` of the block of column minima after the last tile of a pair. -/
theorem colBlock_at (c : Dev nD) (t : Fin cfg0.N) (hN : t.val < 128) (h7 : t.val % 8 = 7) (y : S1x1x4096.Idx) :
    (outsAt0 μ c t.val t.isLt).2 y = near2 (P μ c) (Q μ c) ⟨t.val / 8, by omega⟩ (y 2) := by
  obtain ⟨u, v, j, rfl⟩ : ∃ (u : Fin 1) (v : Fin 1) (j : Fin 4096), y = ix3 u v j := ⟨y 0, y 1, y 2, eq_ix3 y⟩
  obtain rfl : u = 0 := Subsingleton.elim _ _
  obtain rfl : v = 0 := Subsingleton.elim _ _
  exact colBlock_last μ c t h7 _ rfl j

/-- What the last tile of a pair writes back is its block of that array. -/
theorem cols_flushed (c : Dev nD) (t : Fin cfg0.N) (hf : (cfg0.win 5).flush t = true) :
    (dats μ 0 c).flushed 5 t = ((cfg0.win 5).blk t).view.read (Elt Ideal) (colArr μ c) := by
  have h7 : t.val % 8 = 7 := (flush0_5 t).mp hf
  show (cfg0.win 5).cut (grid0.coords t) ((dats μ 0 c).after 5 t) = _
  rw [after0_5]
  have hN : t.val < 128 := lt_of_lt_of_eq t.isLt N_0
  funext y
  show (outsAt0 μ c t.val t.isLt).2 y = colArr μ c (((cfg0.win 5).blk t).view.emb y)
  refine (colBlock_at μ c t hN h7 y).trans ?_
  show near2 _ _ _ _ = near2 (P μ c) (Q μ c) ((((cfg0.win 5).blk t).view.emb y) 0) ((((cfg0.win 5).blk t).view.emb y) 2)
  have hy0 : (y 0).val = 0 := by have : (y 0).val < 1 := (y 0).isLt; omega
  congr 1
  · apply Fin.ext
    show t.val / 8 = win0_5.index t (0 : Fin 3) * 1 + 1 * (y 0).val
    rw [(index_cols t).1, hy0]; omega
  · apply Fin.ext
    show (y 2).val = win0_5.index t (2 : Fin 3) * 4096 + 1 * (y 2).val
    rw [(index_cols t).2.2]; omega

theorem cols_mem (t : Fin cfg0.N) (i : S16x1x4096.Idx) :
    i ∈ ((cfg0.win 5).blk t).view.set ↔ ∀ a : Fin 3, win0_5.index t a * S1x1x4096.size a ≤ (i a).val ∧ (i a).val < win0_5.index t a * S1x1x4096.size a + S1x1x4096.size a := by
  show i ∈ ((View.whole main_v7_1).slice (win0_5.rect t)).set ↔ _
  rw [View.set_slice_whole, Rect.mem_set_unit]
  exact Iff.rfl

/-- Entry (b, 0, j) is written back by the last tile of pair `b`. -/
theorem cols_cover (i : S16x1x4096.Idx) : ∃ t : Fin cfg0.N, (cfg0.win 5).flush t = true ∧ i ∈ ((cfg0.win 5).blk t).view.set := by
  have h0 : (i 0).val < 16 := (i 0).isLt
  have h1 : (i 1).val < 1 := (i 1).isLt
  have h2 : (i 2).val < 4096 := (i 2).isLt
  have hN : cfg0.N = 128 := N_0
  refine ⟨⟨8 * (i 0).val + 7, by rw [hN]; omega⟩, (flush0_5 _).mpr (by dsimp only; omega), ?_⟩
  rw [cols_mem]
  obtain ⟨e0, e1, e2⟩ := index_cols ⟨8 * (i 0).val + 7, by rw [hN]; omega⟩
  intro a
  match a with
  | ⟨0, _⟩ => show win0_5.index _ (0 : Fin 3) * 1 ≤ (i 0).val ∧ (i 0).val < win0_5.index _ (0 : Fin 3) * 1 + 1; rw [e0]; dsimp only; omega
  | ⟨1, _⟩ => show win0_5.index _ (1 : Fin 3) * 1 ≤ (i 1).val ∧ (i 1).val < win0_5.index _ (1 : Fin 3) * 1 + 1; rw [e1]; omega
  | ⟨2, _⟩ => show win0_5.index _ (2 : Fin 3) * 4096 ≤ (i 2).val ∧ (i 2).val < win0_5.index _ (2 : Fin 3) * 4096 + 4096; rw [e2]; omega

/-- The second result array after the run. -/
theorem cols_final (c : Dev nD) : (dats μ 0 c).arrAt 5 cfg0.N = colArr μ c :=
  (dats μ 0 c).arrAt_eq_of_cover 5 (colArr μ c) (cols_flushed μ c) cols_cover

end Cert.KernelIdeal.Arrays

end
-- ==== Proof.Cost.lean ====
/-
  The cost from the two tables of nearest-neighbour distances: for each pair of clouds the mean of each table's row, the
  two means added and halved; the sixteen halves summed.  Both programs end with exactly these operations.
-/
import proofs.«119557_j61194694033711_1_alg».proof.Proof.Spec

noncomputable section

namespace Cert.Chamfer

open Idealize.ShloMosaic

abbrev SMat : Shape := ⟨2, ![16, 4096]⟩
abbrev SVec : Shape := ⟨1, ![16]⟩
abbrev SOne : Shape := ⟨0, ![]⟩

/-- The cost of two 16 × 4096 tables of distances. -/
def cost (h1 : SMat.ReducesTo [1] SVec) (hu : 0 < SOne.numel) (hb : SOne.BroadcastsInDim SVec (![] : Fin 0 → Fin SVec.rank))
    (h0 : SVec.ReducesTo [0] SOne) (d1 d2 : FVec Ideal SMat .f32) : FVec Ideal SOne .f32 :=
  Host.reduceAdd (mulf (addf
      (Host.divf (Host.reduceAdd d1 (constant (F := Ideal) SOne .f32 0x00000000#32) h1 hu)
        (broadcastInDim SVec ![] hb (constant (F := Ideal) SOne .f32 0x45800000#32)))
      (Host.divf (Host.reduceAdd d2 (constant (F := Ideal) SOne .f32 0x00000000#32) h1 hu)
        (broadcastInDim SVec ![] hb (constant (F := Ideal) SOne .f32 0x45800000#32))))
    (broadcastInDim SVec ![] hb (constant (F := Ideal) SOne .f32 0x3F000000#32)))
    (constant (F := Ideal) SOne .f32 0x00000000#32) h0 hu

/-- The nearest-neighbour distances of the first clouds' points, pair by pair. -/
def nearTable1 (p q : Pts) : FVec Ideal SMat .f32 := fun i => near1 p q (i 0) (i 1)

/-- The nearest-neighbour distances of the second clouds' points, pair by pair. -/
def nearTable2 (p q : Pts) : FVec Ideal SMat .f32 := fun i => near2 p q (i 0) (i 1)

end Cert.Chamfer

end
-- ==== Proof.Result.lean ====
/-
  The kernel program's result: @main's lines after the region drop the unit axis of each result array and take the cost
  of the two tables.
-/
import proofs.«119557_j61194694033711_1_alg».proof.Proof.Arrays
import proofs.«119557_j61194694033711_1_alg».proof.Proof.Cost

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Fold Cert.KernelIdeal.Arrays Cert.Chamfer

variable (μ : (ℓ : Loc nD τ sig) → Buf (Elt Ideal) ℓ) (ρ : Dev nD → PrngReg)

/-- The first result array with its unit axis dropped is the table of the first clouds' nearest-neighbour distances. -/
theorem rows_cast (c : Dev nD) :
    shapeCast S16x4096 (rowArr μ c) shapeCasts_S16x4096x1_S16x4096 = nearTable1 (P μ c) (Q μ c) := by
  funext i
  obtain ⟨b, n, rfl⟩ : ∃ (b : Fin 16) (n : Fin 4096), i = ix2 b n := ⟨i 0, i 1, eq_ix2 i⟩
  refine (shapeCast_apply (rowArr μ c) shapeCasts_S16x4096x1_S16x4096 (ix2 b n) (ix3 b n (0 : Fin 1)) (by
    show (S16x4096x1.rowMajor (ix3 b n (0 : Fin 1))).val = (S16x4096.rowMajor (ix2 b n)).val
    rw [Shape.rowMajor_val_three, Shape.rowMajor_val_two]
    show (b.val * 4096 + n.val) * 1 + 0 = b.val * 4096 + n.val
    omega)).trans ?_
  rfl

/-- The second result array with its unit axis dropped is the table of the second clouds' nearest-neighbour distances. -/
theorem cols_cast (c : Dev nD) :
    shapeCast S16x4096 (colArr μ c) shapeCasts_S16x1x4096_S16x4096 = nearTable2 (P μ c) (Q μ c) := by
  funext i
  obtain ⟨b, j, rfl⟩ : ∃ (b : Fin 16) (j : Fin 4096), i = ix2 b j := ⟨i 0, i 1, eq_ix2 i⟩
  refine (shapeCast_apply (colArr μ c) shapeCasts_S16x1x4096_S16x4096 (ix2 b j) (ix3 b (0 : Fin 1) j) (by
    show (S16x1x4096.rowMajor (ix3 b (0 : Fin 1) j)).val = (S16x4096.rowMajor (ix2 b j)).val
    rw [Shape.rowMajor_val_three, Shape.rowMajor_val_two]
    show (b.val * 1 + 0) * 4096 + j.val = b.val * 4096 + j.val
    omega)).trans ?_
  rfl

/-- @main's lines after the region compute the cost of the two tables. -/
theorem tail_eq (c : Dev nD) : Pipeline.afterTail₀ cfgs (dats μ) 0 (V0 μ) [hostOps1] c main_v19
    = cost reducesTo_S16x4096_S16_d1 h_S_ bcast_S_S16 reducesTo_S16_S_d0 (nearTable1 (P μ c) (Q μ c)) (nearTable2 (P μ c) (Q μ c)) := by
  unfold Pipeline.afterTail₀
  show StableHlo.after hostOps1 _ (Proc.devRef .tc main_v19) = _
  after_results
  have hr : Pipeline.withArrays (cfgs 0).spec c (V0 μ c) (fun w => (dats μ 0 c).arrAt w (cfgs 0).N) (Proc.tc.devRef main_v7_0) = rowArr μ c :=
    (Pipeline.withArrays_arr spec0 launch0.win.arr_inj c _ _ 4).trans (rows_final μ c)
  have hc : Pipeline.withArrays (cfgs 0).spec c (V0 μ c) (fun w => (dats μ 0 c).arrAt w (cfgs 0).N) (Proc.tc.devRef main_v7_1) = colArr μ c :=
    (Pipeline.withArrays_arr spec0 launch0.win.arr_inj c _ _ 5).trans (cols_final μ c)
  rw [hr, hc]
  show cost reducesTo_S16x4096_S16_d1 h_S_ bcast_S_S16 reducesTo_S16_S_d0
      (shapeCast S16x4096 (rowArr μ c) shapeCasts_S16x4096x1_S16x4096) (shapeCast S16x4096 (colArr μ c) shapeCasts_S16x1x4096_S16x4096) = _
  rw [rows_cast, cols_cast]

/-- The result buffer is no array of the region: it keeps what the lines after the region wrote. -/
theorem result_mem : main_v19 ∈ Pipeline.restRefs sig (cfgs 0).spec :=
  Pipeline.mem_restRefs_of main_v19 rfl (fun w => by fin_cases w <;> decide)

/-- The kernel program's run, read: its result is the cost of the two nearest-neighbour tables of its arguments, which it
    leaves unchanged. -/
theorem run : θ_run defs (onTc (τ := τ) (main (F := Ideal))) ⟨μ, fun _ => 0, ρ⟩ fun r => ∀ c : Dev nD,
      r.2.mem ((c : Thread nD τ).loc main_v19)
        = cost reducesTo_S16x4096_S16_d1 h_S_ bcast_S_S16 reducesTo_S16_S_d0 (nearTable1 (P μ c) (Q μ c)) (nearTable2 (P μ c) (Q μ c))
      ∧ r.2.mem ((c : Thread nD τ).loc main_arg0) = μ ((c : Thread nD τ).loc main_arg0)
      ∧ r.2.mem ((c : Thread nD τ).loc main_arg1) = μ ((c : Thread nD τ).loc main_arg1) :=
  (θ_run defs _ _).mono (fun r h c => ⟨((h c).2 main_v19 result_mem).trans (tail_eq μ c),
      ((h c).1 0).trans (((dats μ 0 c).arrAt_in 0 rfl _).trans ((A_eq μ c 0).trans (V_main_arg0 μ c))),
      ((h c).1 1).trans (((dats μ 0 c).arrAt_in 1 rfl _).trans ((A_eq μ c 1).trans (V_main_arg1 μ c)))⟩)
    (run_main μ ρ)

end Cert.KernelIdeal.Result

end
-- ==== Proof.RefSide.lean ====
/-
  The reference read on the extended reals: its 16 × 4096 × 4096 table of squared distances entry by entry, its two
  minimum-reductions as the tables of nearest-neighbour distances, and its result as their cost.
-/
import proofs.«119557_j61194694033711_1_alg».proof.Proof.Gen.ReferenceIdeal.Read
import proofs.«119557_j61194694033711_1_alg».proof.Proof.Cost

noncomputable section

open Idealize.ShloMosaic Idealize.ShloMosaic.ValueIdx

namespace Cert.ReferenceIdeal.RefValue

open Cert.ReferenceIdeal Cert.ReferenceIdeal.Gen Cert.ReferenceIdeal.Read Cert.Chamfer

/-! ## Where each stage reads its operands -/

theorem at_norm1 (b : Fin 16) (n j : Fin 4096) : idx_main_v5 (idx_main_v7 (ix3 b n j)) = ix2 b n :=
  funext fun a => Fin.ext (by match a with | ⟨0, _⟩ => rfl | ⟨1, _⟩ => rfl)
theorem at_norm2 (b : Fin 16) (n j : Fin 4096) : idx_main_v6 (idx_main_v8 (ix3 b n j)) = ix2 b j :=
  funext fun a => Fin.ext (by match a with | ⟨0, _⟩ => rfl | ⟨1, _⟩ => rfl)
theorem at_sq1 (b : Fin 16) (n : Fin 4096) (k : Fin 3) : idx_main_v1 (ix2 b n) k = ix3 b n k :=
  funext fun a => Fin.ext (by match a with | ⟨0, _⟩ => rfl | ⟨1, _⟩ => rfl | ⟨2, _⟩ => rfl)
theorem at_sq2 (b : Fin 16) (j : Fin 4096) (k : Fin 3) : idx_main_v3 (ix2 b j) k = ix3 b j k :=
  funext fun a => Fin.ext (by match a with | ⟨0, _⟩ => rfl | ⟨1, _⟩ => rfl | ⟨2, _⟩ => rfl)
theorem at_left (b : Fin 16) (n j : Fin 4096) (k : Fin 3) : lidx_main_v4 (ix3 b n j) k = ix3 b n k :=
  funext fun a => Fin.ext (by match a with | ⟨0, _⟩ => rfl | ⟨1, _⟩ => rfl | ⟨2, _⟩ => rfl)
theorem at_right (b : Fin 16) (n j : Fin 4096) (k : Fin 3) : ridx_main_v4 (ix3 b n j) k = ix3 b j k :=
  funext fun a => Fin.ext (by match a with | ⟨0, _⟩ => rfl | ⟨1, _⟩ => rfl | ⟨2, _⟩ => rfl)

/-- Entry (b, n, j) of the reference's table is the squared distance between point `n` of the first cloud and point `j`
    of the second in pair `b`. -/
theorem table_apply (x0 x1 : FVec Ideal S16x4096x3 .f32) (b : Fin 16) (n j : Fin 4096) :
    val_main_v12 (F := Ideal) x0 x1 (ix3 b n j) = sqd x0 x1 b n j := by
  rw [val_main_v12_apply, val_main_v9_apply, val_main_v11_apply, val_main_v7_apply, val_main_v8_apply, val_main_v5_apply,
    val_main_v6_apply, val_main_v1_apply, val_main_v3_apply, val_main_v10_apply, val_main_v4_apply]
  simp only [at_norm1, at_norm2, at_sq1, at_sq2, at_left, at_right, val_main_v0_apply, val_main_v2_apply, val_main_cst_apply,
    val_main_cst_0_apply, val_main_cst_1_apply, Ideal.subf_def, Ideal.addf_def, Ideal.mulf_def, Ideal.ofBits_def]
  rfl

theorem red_last : S16x4096x4096.Reduces [2] S16x4096 := by decide
theorem red_mid : S16x4096x4096.Reduces [1] S16x4096 := by decide

theorem lift_last (h : S16x4096x4096.Reduces [2] S16x4096) (b : Fin 16) (n j : Fin 4096) : h.lift (ix2 b n) j = ix3 b n j :=
  funext fun a => Fin.ext (by match a with | ⟨0, _⟩ => rfl | ⟨1, _⟩ => rfl | ⟨2, _⟩ => rfl)
theorem lift_mid (h : S16x4096x4096.Reduces [1] S16x4096) (b : Fin 16) (j n : Fin 4096) : h.lift (ix2 b j) n = ix3 b n j :=
  funext fun a => Fin.ext (by match a with | ⟨0, _⟩ => rfl | ⟨1, _⟩ => rfl | ⟨2, _⟩ => rfl)

/-- The host's minimum over the last axis of any 16 × 4096 × 4096 table, from +∞, at (b, n). -/
theorem minLast_apply (y : FVec Ideal S16x4096x4096 .f32) (b : Fin 16) (n : Fin 4096) :
    Host.reduce FloatOps.minimumf y (constant (F := Ideal) S_ .f32 0x7F800000#32) reducesTo_S16x4096x4096_S16x4096_d2 h_S_ (ix2 b n)
      = (Finset.univ : Finset (Fin 4096)).fold min (⊤ : EReal) (fun j => y (ix3 b n j)) := by
  refine (Host.reduce_eq_fold_single (FloatOps.minimumf (F := Ideal) (φ := .f32)) y (constant (F := Ideal) S_ .f32 0x7F800000#32)
    reducesTo_S16x4096x4096_S16x4096_d2 red_last h_S_ (ix2 b n)).trans ?_
  show (Finset.univ : Finset (Fin 4096)).fold min (Ideal.ofBits .f32 0x7F800000#32) _ = _
  rw [top_word]
  exact congrArg (fun f => (Finset.univ : Finset (Fin 4096)).fold min (⊤ : EReal) f) (funext fun j => congrArg y (lift_last _ b n j))

/-- The host's minimum over the middle axis, from +∞, at (b, j). -/
theorem minMid_apply (y : FVec Ideal S16x4096x4096 .f32) (b : Fin 16) (j : Fin 4096) :
    Host.reduce FloatOps.minimumf y (constant (F := Ideal) S_ .f32 0x7F800000#32) reducesTo_S16x4096x4096_S16x4096_d1 h_S_ (ix2 b j)
      = (Finset.univ : Finset (Fin 4096)).fold min (⊤ : EReal) (fun n => y (ix3 b n j)) := by
  refine (Host.reduce_eq_fold_single (FloatOps.minimumf (F := Ideal) (φ := .f32)) y (constant (F := Ideal) S_ .f32 0x7F800000#32)
    reducesTo_S16x4096x4096_S16x4096_d1 red_mid h_S_ (ix2 b j)).trans ?_
  show (Finset.univ : Finset (Fin 4096)).fold min (Ideal.ofBits .f32 0x7F800000#32) _ = _
  rw [top_word]
  exact congrArg (fun f => (Finset.univ : Finset (Fin 4096)).fold min (⊤ : EReal) f) (funext fun n => congrArg y (lift_mid _ b j n))

/-- The minimum over the last axis is the table of the first clouds' nearest-neighbour distances. -/
theorem near1_eq (x0 x1 : FVec Ideal S16x4096x3 .f32) : val_main_v13 (F := Ideal) x0 x1 = nearTable1 x0 x1 := by
  funext i
  obtain ⟨b, n, rfl⟩ : ∃ (b : Fin 16) (n : Fin 4096), i = ix2 b n := ⟨i 0, i 1, eq_ix2 i⟩
  refine (minLast_apply (val_main_v12 (F := Ideal) x0 x1) b n).trans ?_
  show _ = near1 x0 x1 b n
  unfold near1
  exact congrArg (fun f => (Finset.univ : Finset (Fin 4096)).fold min (⊤ : EReal) f) (funext fun j => table_apply x0 x1 b n j)

/-- The minimum over the middle axis is the table of the second clouds' nearest-neighbour distances. -/
theorem near2_eq (x0 x1 : FVec Ideal S16x4096x3 .f32) : val_main_v14 (F := Ideal) x0 x1 = nearTable2 x0 x1 := by
  funext i
  obtain ⟨b, j, rfl⟩ : ∃ (b : Fin 16) (j : Fin 4096), i = ix2 b j := ⟨i 0, i 1, eq_ix2 i⟩
  refine (minMid_apply (val_main_v12 (F := Ideal) x0 x1) b j).trans ?_
  show _ = near2 x0 x1 b j
  unfold near2
  exact congrArg (fun f => (Finset.univ : Finset (Fin 4096)).fold min (⊤ : EReal) f) (funext fun n => table_apply x0 x1 b n j)

/-- The reference's result is the cost of the two tables. -/
theorem result_eq (x0 x1 : FVec Ideal S16x4096x3 .f32) :
    val_main_v24 (F := Ideal) x0 x1
      = cost reducesTo_S16x4096_S16_d1 h_S_ bcast_S_S16 reducesTo_S16_S_d0 (nearTable1 x0 x1) (nearTable2 x0 x1) := by
  rw [← near1_eq, ← near2_eq]
  rfl

end Cert.ReferenceIdeal.RefValue

end
-- ==== Proof.lean ====
/-
  The certificate of the Chamfer kernel against its reference.

  For sixteen pairs of clouds of 4096 points, both programs form the squared distances |p|² + |q|² − 2·⟨p, q⟩ between
  the points of a pair, take each point's distance to its nearest neighbour in the other cloud, and sum, over the pairs,
  half the sum of the two clouds' mean distances.  The kernel forms the table 512 rows at a time: a tile's row minima are
  final, its column minima are folded into a block carried over the eight tiles of a pair.  On the extended reals a
  minimum started from +∞ is determined by its lower bounds, so the carried block ends at the column minima over the
  whole cloud, and the two programs' results are the same function of their arguments.  No rewrite was applied when
  the kernel was idealized, and nothing here needs the inputs to be finite.
-/
import proofs.«119557_j61194694033711_1_alg».proof.Defs
import proofs.«119557_j61194694033711_1_alg».proof.Proof.Gen.Kernel
import proofs.«119557_j61194694033711_1_alg».proof.Proof.Gen.Kernel.Skeleton
import proofs.«119557_j61194694033711_1_alg».proof.Proof.Gen.Kernel.Launch
import proofs.«119557_j61194694033711_1_alg».proof.Proof.Gen.Kernel.Points
import proofs.«119557_j61194694033711_1_alg».proof.Proof.Gen.Kernel.Frame
import proofs.«119557_j61194694033711_1_alg».proof.Proof.Gen.KernelIdeal
import proofs.«119557_j61194694033711_1_alg».proof.Proof.Gen.KernelIdeal.Skeleton
import proofs.«119557_j61194694033711_1_alg».proof.Proof.Gen.KernelIdeal.Launch
import proofs.«119557_j61194694033711_1_alg».proof.Proof.Gen.KernelIdeal.Points
import proofs.«119557_j61194694033711_1_alg».proof.Proof.Gen.KernelIdeal.Frame
import proofs.«119557_j61194694033711_1_alg».proof.Proof.Gen.ReferenceIdeal
import proofs.«119557_j61194694033711_1_alg».proof.Proof.Gen.Pre_finite_inputs
import proofs.«119557_j61194694033711_1_alg».proof.Proof.Gen.ReferenceIdeal.Run
import proofs.«119557_j61194694033711_1_alg».proof.Proof.Gen.ReferenceIdeal.Read
import proofs.«119557_j61194694033711_1_alg».proof.Proof.Result
import proofs.«119557_j61194694033711_1_alg».proof.Proof.RefSide
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at the cost of the two nearest-neighbour tables of arguments that agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
